-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel
  bcast_S_S1024x32x128 : S_.BroadcastsInDim S1024x32x128 (![] : Fin 0 → Fin S1024x32x128.rank)
  reducesTo_S1024x32x128_S_d0_1_2 : S1024x32x128.ReducesTo [0, 1, 2] S_
  bcast_S_S1024x32x32x128 : S_.BroadcastsInDim S1024x32x32x128 (![] : Fin 0 → Fin S1024x32x32x128.rank)
  reducesTo_S1024x32x32x128_S_d0_1_2_3 : S1024x32x32x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1024x128 .f32) (main_arg1 : FVec F S1024x32x128 .f32) (main_arg2 : FVec F S1024x32x32x128 .f32) (main_arg3 : FVec F S128x128 .f32) (main_arg4 : FVec F S128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x32x128 .f32 := Host.absf main_arg1
  let main_cst_0 : FVec F S_ .f32 := constant S_ .f32 0x7F800000#32
  let main_v5 : FVec F S1024x32x128 .f32 := broadcastInDim S1024x32x128 ![] bcast_S_S1024x32x128 main_cst_0
  let main_v6 : IVec S1024x32x128 1 := cmpf .olt main_v4 main_v5
  let main_c_1 : IVec S_ 1 := constantI S_ 1 1#1
  let main_v7 : IVec S_ 1 := (fun x v => Host.reduce IntOp.andi x v reducesTo_S1024x32x128_S_d0_1_2 h_S_) main_v6 main_c_1
  let main_v8 : IVec S_ 1 := andi main_v3 main_v7
  let main_v9 : FVec F S1024x32x32x128 .f32 := Host.absf main_arg2
  let main_cst_2 : FVec F S_ .f32 := constant S_ .f32 0x7F800000#32
  let main_v10 : FVec F S1024x32x32x128 .f32 := broadcastInDim S1024x32x32x128 ![] bcast_S_S1024x32x32x128 main_cst_2
  let main_v11 : IVec S1024x32x32x128 1 := cmpf .olt main_v9 main_v10
  let main_c_3 : IVec S_ 1 := constantI S_ 1 1#1
  let main_v12 : IVec S_ 1 := (fun x v => Host.reduce IntOp.andi x v reducesTo_S1024x32x32x128_S_d0_1_2_3 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S8x128 : Shape := ⟨2, ![8, 128]⟩
abbrev S8x32x128 : Shape := ⟨3, ![8, 32, 128]⟩
abbrev S8x32x32x128 : Shape := ⟨4, ![8, 32, 32, 128]⟩
abbrev S1x128 : Shape := ⟨2, ![1, 128]⟩
abbrev S256x128 : Shape := ⟨2, ![256, 128]⟩
abbrev S8x1x128 : Shape := ⟨3, ![8, 1, 128]⟩
abbrev S8192x128 : Shape := ⟨2, ![8192, 128]⟩
abbrev S8x1x1x128 : Shape := ⟨4, ![8, 1, 1, 128]⟩
abbrev S8x32x1x128 : Shape := ⟨4, ![8, 32, 1, 128]⟩
abbrev S8x1x32x128 : Shape := ⟨4, ![8, 1, 32, 128]⟩

abbrev nBuf : Space → Nat
  | .hbm => 8
  | .vmem => 14
  | .smem => 0
  | _ => 0

abbrev bufTy : (tb : Table) → Fin (tcTables nBuf tb) → BufTy
  | .hbm, ⟨0, _⟩ => ⟨S1024x128, .f32⟩
  | .hbm, ⟨1, _⟩ => ⟨S1024x32x128, .f32⟩
  | .hbm, ⟨2, _⟩ => ⟨S1024x32x32x128, .f32⟩
  | .hbm, ⟨3, _⟩ => ⟨S128x128, .f32⟩
  | .hbm, ⟨4, _⟩ => ⟨S128, .f32⟩
  | .hbm, ⟨5, _⟩ => ⟨S1024x128, .f32⟩
  | .hbm, ⟨6, _⟩ => ⟨S1024x32x128, .f32⟩
  | .hbm, ⟨7, _⟩ => ⟨S1024x32x32x128, .f32⟩
  | .local _ .vmem, ⟨0, _⟩ => ⟨S8x128, .f32⟩
  | .local _ .vmem, ⟨1, _⟩ => ⟨S8x128, .f32⟩
  | .local _ .vmem, ⟨2, _⟩ => ⟨S8x32x128, .f32⟩
  | .local _ .vmem, ⟨3, _⟩ => ⟨S8x32x128, .f32⟩
  | .local _ .vmem, ⟨4, _⟩ => ⟨S8x32x32x128, .f32⟩
  | .local _ .vmem, ⟨5, _⟩ => ⟨S8x32x32x128, .f32⟩
  | .local _ .vmem, ⟨6, _⟩ => ⟨S128x128, .f32⟩
  | .local _ .vmem, ⟨7, _⟩ => ⟨S128, .f32⟩
  | .local _ .vmem, ⟨8, _⟩ => ⟨S8x128, .f32⟩
  | .local _ .vmem, ⟨9, _⟩ => ⟨S8x128, .f32⟩
  | .local _ .vmem, ⟨10, _⟩ => ⟨S8x32x128, .f32⟩
  | .local _ .vmem, ⟨11, _⟩ => ⟨S8x32x128, .f32⟩
  | .local _ .vmem, ⟨12, _⟩ => ⟨S8x32x32x128, .f32⟩
  | .local _ .vmem, ⟨13, _⟩ => ⟨S8x32x32x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x32x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  inb_S8x128_S8x128_0_0 : ∀ a, (![0, 0] : Fin 2 → Nat) a + S8x128.size a ≤ S8x128.size a
  h_S8x128 : 0 < S8x128.numel
  shapeCasts_S128_S1x128 : S128.ShapeCasts S1x128
  broadcasts_S1x128_S8x128 : S1x128.Broadcasts S8x128
  inb_S8x32x128_S8x32x128_0_0_0 : ∀ a, (![0, 0, 0] : Fin 3 → Nat) a + S8x32x128.size a ≤ S8x32x128.size a
  h_S8x32x128 : 0 < S8x32x128.numel
  shapeCasts_S8x32x128_S256x128 : S8x32x128.ShapeCasts S256x128
  shapeCasts_S256x128_S8x32x128 : S256x128.ShapeCasts S8x32x128
  shapeCasts_S8x128_S8x1x128 : S8x128.ShapeCasts S8x1x128
  broadcasts_S8x1x128_S8x32x128 : S8x1x128.Broadcasts S8x32x128
  inb_S8x32x32x128_S8x32x32x128_0_0_0_0 : ∀ a, (![0, 0, 0, 0] : Fin 4 → Nat) a + S8x32x32x128.size a ≤ S8x32x32x128.size a
  h_S8x32x32x128 : 0 < S8x32x32x128.numel
  shapeCasts_S8x32x32x128_S8192x128 : S8x32x32x128.ShapeCasts S8192x128
  shapeCasts_S8192x128_S8x32x32x128 : S8192x128.ShapeCasts S8x32x32x128
  shapeCasts_S8x128_S8x1x1x128 : S8x128.ShapeCasts S8x1x1x128
  shapeCasts_S8x32x128_S8x32x1x128 : S8x32x128.ShapeCasts S8x32x1x128
  broadcasts_S8x1x1x128_S8x32x1x128 : S8x1x1x128.Broadcasts S8x32x1x128
  shapeCasts_S8x32x128_S8x1x32x128 : S8x32x128.ShapeCasts S8x1x32x128
  broadcasts_S8x32x1x128_S8x32x32x128 : S8x32x1x128.Broadcasts S8x32x32x128
  broadcasts_S8x1x32x128_S8x32x32x128 : S8x1x32x128.Broadcasts S8x32x32x128
  broadcasts_S8x1x1x128_S8x32x32x128 : S8x1x1x128.Broadcasts S8x32x32x128
  dot_S8x128_S128x128_S8x128_1_0_0_1_n_n_wf : DotDims.WF S8x128 S128x128 S8x128 [1] [0] [0] [1] [] []
  dot_S256x128_S128x128_S256x128_1_0_0_1_n_n_wf : DotDims.WF S256x128 S128x128 S256x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S1024x128.size a
  hwx0_0 : ∀ i : grid0.Coords, EltTy.bits .f32 = 32 ∨ (Rect.block (s := S1024x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x128.size a ≤ S1024x32x128.size a
  hwx0_1 : ∀ i : grid0.Coords, EltTy.bits .f32 = 32 ∨ (Rect.block (s := S1024x32x128) S8x32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32x32x128.size a ≤ S1024x32x32x128.size a
  hwx0_2 : ∀ i : grid0.Coords, EltTy.bits .f32 = 32 ∨ (Rect.block (s := S1024x32x32x128) S8x32x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S1024x128.size a
  hwx0_5 : ∀ i : grid0.Coords, EltTy.bits .f32 = 32 ∨ (Rect.block (s := S1024x128) S8x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x32x128.size a ≤ S1024x32x128.size a
  hwx0_6 : ∀ i : grid0.Coords, EltTy.bits .f32 = 32 ∨ (Rect.block (s := S1024x32x128) S8x32x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x32x32x128.size a ≤ S1024x32x32x128.size a
  hwx0_7 : ∀ i : grid0.Coords, EltTy.bits .f32 = 32 ∨ (Rect.block (s := S1024x32x32x128) S8x32x32x128.size (cc0_transform_7 i) (hinb0_7 i)).WholeWords (EltTy.packing .f32)

variable [Facts₀]

def dot_S8x128_S128x128_S8x128_1_0_0_1_n_n : DotDims S8x128 S128x128 S8x128 where
  lhsContracting := [1]
  rhsContracting := [0]
  lhsNonContracting := [0]
  rhsNonContracting := [1]
  lhsBatch := []
  rhsBatch := []
  wf := dot_S8x128_S128x128_S8x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S8x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S8x32x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_2) S8x32x32x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x128 : Shape := ⟨2, ![1024, 128]⟩
abbrev S1024x32x128 : Shape := ⟨3, ![1024, 32, 128]⟩
abbrev S1024x32x32x128 : Shape := ⟨4, ![1024, 32, 32, 128]⟩
abbrev S128x128 : Shape := ⟨2, ![128, 128]⟩
abbrev S128 : Shape := ⟨1, ![128]⟩
abbrev S1x128 : Shape := ⟨2, ![1, 128]⟩
abbrev S_ : Shape := ⟨0, ![]⟩
abbrev S1024x1x128 : Shape := ⟨3, ![1024, 1, 128]⟩
abbrev S1024x1x1x128 : Shape := ⟨4, ![1024, 1, 1, 128]⟩
abbrev S1024x32x1x128 : Shape := ⟨4, ![1024, 32, 1, 128]⟩
abbrev S1024x1x32x128 : Shape := ⟨4, ![1024, 1, 32, 128]⟩

abbrev nBuf : Space → Nat
  | .hbm => 35
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x32x128, .f32⟩
  | .hbm, ⟨2, _⟩ => ⟨S1024x32x32x128, .f32⟩
  | .hbm, ⟨3, _⟩ => ⟨S128x128, .f32⟩
  | .hbm, ⟨4, _⟩ => ⟨S128, .f32⟩
  | .hbm, ⟨5, _⟩ => ⟨S1024x128, .f32⟩
  | .hbm, ⟨6, _⟩ => ⟨S1x128, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S_, .f32⟩
  | .hbm, ⟨12, _⟩ => ⟨S1024x128, .f32⟩
  | .hbm, ⟨13, _⟩ => ⟨S1024x128, .f32⟩
  | .hbm, ⟨14, _⟩ => ⟨S_, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x32x128, .f32⟩
  | .hbm, ⟨19, _⟩ => ⟨S1024x1x128, .f32⟩
  | .hbm, ⟨20, _⟩ => ⟨S1024x32x128, .f32⟩
  | .hbm, ⟨21, _⟩ => ⟨S1024x32x128, .f32⟩
  | .hbm, ⟨22, _⟩ => ⟨S1024x1x1x128, .f32⟩
  | .hbm, ⟨23, _⟩ => ⟨S1024x32x1x128, .f32⟩
  | .hbm, ⟨24, _⟩ => ⟨S1024x32x1x128, .f32⟩
  | .hbm, ⟨25, _⟩ => ⟨S1024x32x1x128, .f32⟩
  | .hbm, ⟨26, _⟩ => ⟨S1024x1x32x128, .f32⟩
  | .hbm, ⟨27, _⟩ => ⟨S1024x32x32x128, .f32⟩
  | .hbm, ⟨28, _⟩ => ⟨S1024x32x32x128, .f32⟩
  | .hbm, ⟨29, _⟩ => ⟨S1024x32x32x128, .f32⟩
  | .hbm, ⟨30, _⟩ => ⟨S1024x32x32x128, .f32⟩
  | .hbm, ⟨31, _⟩ => ⟨S1024x1x1x128, .f32⟩
  | .hbm, ⟨32, _⟩ => ⟨S1024x32x32x128, .f32⟩
  | .hbm, ⟨33, _⟩ => ⟨S1024x32x32x128, .f32⟩
  | .hbm, ⟨34, _⟩ => ⟨S1024x32x32x128, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S1024x128_S1024x1x128_0_2 : S1024x128.BroadcastsInDim S1024x1x128 (![0, 2] : Fin 2 → Fin S1024x1x128.rank)
  bcast_S1024x1x128_S1024x32x128_0_1_2 : S1024x1x128.BroadcastsInDim S1024x32x128 (![0, 1, 2] : Fin 3 → Fin S1024x32x128.rank)
  bcast_S1024x128_S1024x1x1x128_0_3 : S1024x128.BroadcastsInDim S1024x1x1x128 (![0, 3] : Fin 2 → Fin S1024x1x1x128.rank)
  bcast_S1024x32x128_S1024x32x1x128_0_1_3 : S1024x32x128.BroadcastsInDim S1024x32x1x128 (![0, 1, 3] : Fin 3 → Fin S1024x32x1x128.rank)
  bcast_S1024x1x1x128_S1024x32x1x128_0_1_2_3 : S1024x1x1x128.BroadcastsInDim S1024x32x1x128 (![0, 1, 2, 3] : Fin 4 → Fin S1024x32x1x128.rank)
  bcast_S1024x32x128_S1024x1x32x128_0_2_3 : S1024x32x128.BroadcastsInDim S1024x1x32x128 (![0, 2, 3] : Fin 3 → Fin S1024x1x32x128.rank)
  bcast_S1024x32x1x128_S1024x32x32x128_0_1_2_3 : S1024x32x1x128.BroadcastsInDim S1024x32x32x128 (![0, 1, 2, 3] : Fin 4 → Fin S1024x32x32x128.rank)
  bcast_S1024x1x32x128_S1024x32x32x128_0_1_2_3 : S1024x1x32x128.BroadcastsInDim S1024x32x32x128 (![0, 1, 2, 3] : Fin 4 → Fin S1024x32x32x128.rank)
  bcast_S1024x1x1x128_S1024x32x32x128_0_1_2_3 : S1024x1x1x128.BroadcastsInDim S1024x32x32x128 (![0, 1, 2, 3] : Fin 4 → Fin S1024x32x32x128.rank)
  dot_S1024x128_S128x128_S1024x128_1_0_0_1_n_n_wf : DotDims.WF S1024x128 S128x128 S1024x128 [1] [0] [0] [1] [] []
  dot_S1024x32x128_S128x128_S1024x32x128_2_0_01_1_n_n_wf : DotDims.WF S1024x32x128 S128x128 S1024x32x128 [2] [0] [0, 1] [1] [] []
  dot_S1024x32x32x128_S128x128_S1024x32x32x128_3_0_012_1_n_n_wf : DotDims.WF S1024x32x32x128 S128x128 S1024x32x32x128 [3] [0] [0, 1, 2] [1] [] []

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x32x128_S128x128_S1024x32x128_2_0_01_1_n_n : DotDims S1024x32x128 S128x128 S1024x32x128 where
  lhsContracting := [2]
  rhsContracting := [0]
  lhsNonContracting := [0, 1]
  rhsNonContracting := [1]
  lhsBatch := []
  rhsBatch := []
  wf := dot_S1024x32x128_S128x128_S1024x32x128_2_0_01_1_n_n_wf
def dot_S1024x32x32x128_S128x128_S1024x32x32x128_3_0_012_1_n_n : DotDims S1024x32x32x128 S128x128 S1024x32x32x128 where
  lhsContracting := [3]
  rhsContracting := [0]
  lhsNonContracting := [0, 1, 2]
  rhsNonContracting := [1]
  lhsBatch := []
  rhsBatch := []
  wf := dot_S1024x32x32x128_S128x128_S1024x32x32x128_3_0_012_1_n_n_wf

class Facts : Prop extends Facts₀ where

variable [Facts]
-- ==== Proof.Spec.lean ====
/-
  One tanh layer and its first two derivatives along 32 directions, over the extended reals.

  For a row `x` (128 input features) the layer's output at feature `o` is `f = tanh (x·K + b)`, with
  `tanh' = 1 - f²` and `tanh'' = (-2·f)·(1 - f²)`. Pushing a direction's derivative row `y = ∂x` through the chain rule
  gives `∂f = tanh'·(y·K)`; pushing two directions' rows `y, y'` and the second-derivative row `z = ∂²x` gives
  `∂²f = (tanh''·(y·K))·(y'·K) + tanh'·(z·K)`. Every entry depends on ONE sample's rows only, so the functions below
  are stated over rows; an array (or a block of eight samples) is read by choosing which rows.

  The two float words `1` and `-2` are kept as the words both programs spell; nothing here evaluates them, and no law
  beyond the definitions is used: the two programs compute these very expressions, grouped the same way.
-/
import Idealize.ShloMosaic.PureOps.Ideal
import Idealize.ShloMosaic.Lib.ValueIdx

noncomputable section

namespace Cert.TanhLayer

open Idealize.ShloMosaic Idealize.ShloMosaic.ValueIdx

/-- The weight matrix `K[i, o]` and the bias `b[o]`, as index-to-value functions. -/
abbrev Weights := (⟨2, ![128, 128]⟩ : Shape).Idx → EReal
abbrev Bias := (⟨1, ![128]⟩ : Shape).Idx → EReal
/-- A row of 128 input features. -/
abbrev Row := Fin 128 → EReal

/-- The float word of `1.0`, read on the extended reals. -/
def one : EReal := Ideal.ofBits .f32 0x3F800000#32
/-- The float word of `-2.0`, read on the extended reals. -/
def negTwo : EReal := Ideal.ofBits .f32 0xC0000000#32

/-- `(x·K)[o]`: the sum over the input features `k` of `x[k]·K[k, o]`. -/
def lin (x : Row) (K : Weights) (o : Fin 128) : EReal := ∑ k : Fin 128, x k * K (ix2 k o)

/-- The layer: `f = tanh ((x·K)[o] + b[o])`. -/
def act (x : Row) (K : Weights) (b : Bias) (o : Fin 128) : EReal := Ideal.tanh (lin x K o + b (ix1 o))

/-- `tanh'` at the pre-activation, through `f`: `1 - f·f`. -/
def slope (x : Row) (K : Weights) (b : Bias) (o : Fin 128) : EReal := one - act x K b o * act x K b o

/-- `tanh''` at the pre-activation, through `f`: `(-2·f)·(1 - f·f)`. -/
def curv (x : Row) (K : Weights) (b : Bias) (o : Fin 128) : EReal := negTwo * act x K b o * slope x K b o

/-- The first derivative along a direction whose derivative row is `y`: `tanh'·(y·K)[o]`. -/
def jacRow (x y : Row) (K : Weights) (b : Bias) (o : Fin 128) : EReal := slope x K b o * lin y K o

/-- The second derivative along two directions with derivative rows `y`, `y'` and second-derivative row `z`:
    `(tanh''·(y·K)[o])·(y'·K)[o] + tanh'·(z·K)[o]`. -/
def hesRow (x y y' z : Row) (K : Weights) (b : Bias) (o : Fin 128) : EReal :=
  curv x K b o * lin y K o * lin y' K o + slope x K b o * lin z K o

/-! ## The three result arrays over `N` samples (the whole arrays have `N = 1024`, a block has `N = 8`) -/

variable {N : Nat}

/-- Sample `n`'s row of `u : [N, 128]`. -/
abbrev rowU (u : (⟨2, ![N, 128]⟩ : Shape).Idx → EReal) (n : Fin N) : Row := fun k => u (ix2 n k)
/-- Sample `n`'s row of `∂u : [N, 32, 128]` along direction `d`. -/
abbrev rowDu (du : (⟨3, ![N, 32, 128]⟩ : Shape).Idx → EReal) (n : Fin N) (d : Fin 32) : Row := fun k => du (ix3 n d k)
/-- Sample `n`'s row of `∂²u : [N, 32, 32, 128]` along directions `d`, `e`. -/
abbrev rowDdu (ddu : (⟨4, ![N, 32, 32, 128]⟩ : Shape).Idx → EReal) (n : Fin N) (d e : Fin 32) : Row := fun k => ddu (ix4 n d e k)

/-- `f[n, o]`. -/
def outF (u : (⟨2, ![N, 128]⟩ : Shape).Idx → EReal) (K : Weights) (b : Bias) : (⟨2, ![N, 128]⟩ : Shape).Idx → EReal :=
  fun i => act (rowU u (i 0)) K b (i 1)

/-- `∂f[n, d, o]`. -/
def outJ (u : (⟨2, ![N, 128]⟩ : Shape).Idx → EReal) (du : (⟨3, ![N, 32, 128]⟩ : Shape).Idx → EReal) (K : Weights) (b : Bias) :
    (⟨3, ![N, 32, 128]⟩ : Shape).Idx → EReal :=
  fun i => jacRow (rowU u (i 0)) (rowDu du (i 0) (i 1)) K b (i 2)

/-- `∂²f[n, d, e, o]`. -/
def outH (u : (⟨2, ![N, 128]⟩ : Shape).Idx → EReal) (du : (⟨3, ![N, 32, 128]⟩ : Shape).Idx → EReal)
    (ddu : (⟨4, ![N, 32, 32, 128]⟩ : Shape).Idx → EReal) (K : Weights) (b : Bias) : (⟨4, ![N, 32, 32, 128]⟩ : Shape).Idx → EReal :=
  fun i => hesRow (rowU u (i 0)) (rowDu du (i 0) (i 1)) (rowDu du (i 0) (i 2)) (rowDdu ddu (i 0) (i 1) (i 2)) K b (i 3)

end Cert.TanhLayer

end
-- ==== Proof.RefStages.lean ====
/-
  The reference, stage by stage, is the specification.

  The reference computes on whole arrays: `z = u·K + b` (one product, the bias broadcast over the 1024 samples),
  `f = tanh z`, `1 - f·f`, `(-2·f)·(1 - f·f)`, the products `∂u·K` and `∂²u·K` contracted over the last axis, and the
  two chain-rule combinations, every factor brought to the result's shape by broadcasts that insert unit axes. Read at
  explicit coordinates `(n, o)`, `(n, d, o)`, `(n, d, e, o)`, each broadcast only forgets the coordinates its operand does
  not have, each product's entry is the sum over the contracted feature of sample `n`'s row against column `o` of `K`,
  and what is left is the specification's row functions, grouped as the specification groups them.
-/
import proofs.«153605_j51488067944601_1_alg».proof.Proof.Gen.ReferenceIdeal.Read
import proofs.«153605_j51488067944601_1_alg».proof.Proof.Spec

noncomputable section

namespace Cert.ReferenceIdeal.Stages

open Idealize.ShloMosaic Idealize.ShloMosaic.ValueIdx Cert.ReferenceIdeal Cert.ReferenceIdeal.Read Cert.TanhLayer

variable (x0 : (⟨S1024x128, .f32⟩ : BufTy).Contents (Elt Ideal)) (x1 : (⟨S1024x32x128, .f32⟩ : BufTy).Contents (Elt Ideal))
  (x2 : (⟨S1024x32x32x128, .f32⟩ : BufTy).Contents (Elt Ideal)) (x3 : (⟨S128x128, .f32⟩ : BufTy).Contents (Elt Ideal))
  (x4 : (⟨S128, .f32⟩ : BufTy).Contents (Elt Ideal))

/-- `(u·K)[n, o]` is `lin` of sample `n`'s row. -/
theorem uK_at (n : Fin 1024) (o : Fin 128) : val_main_v0 (F := Ideal) x0 x3 (ix2 n o) = lin (rowU (N := 1024) x0 n) x3 o := by
  rw [val_main_v0_apply]
  refine Finset.sum_congr rfl fun k _ => ?_
  have el : lidx_main_v0 (ix2 n o) k = ix2 n k := funext fun a => by match a with | ⟨0, _⟩ => rfl | ⟨1, _⟩ => rfl
  have er : ridx_main_v0 (ix2 n o) k = ix2 k o := funext fun a => by match a with | ⟨0, _⟩ => rfl | ⟨1, _⟩ => rfl
  rw [el, er]

/-- `f[n, o]`: the bias reaches entry `(n, o)` as `b[o]` through its two broadcasts. -/
theorem act_at (n : Fin 1024) (o : Fin 128) : val_main_v4 (F := Ideal) x0 x3 x4 (ix2 n o) = act (rowU (N := 1024) x0 n) x3 x4 o := by
  have eb : idx_main_v1 (idx_main_v2 (ix2 n o)) = ix1 o := funext fun a => by match a with | ⟨0, _⟩ => rfl
  rw [val_main_v4_apply, val_main_v3_apply, uK_at, val_main_v2_apply, val_main_v1_apply, eb]
  rfl

/-- `(1 - f·f)[n, o]`. -/
theorem slope_at (n : Fin 1024) (o : Fin 128) : val_main_v7 (F := Ideal) x0 x3 x4 (ix2 n o) = slope (rowU (N := 1024) x0 n) x3 x4 o := by
  rw [val_main_v7_apply, val_main_v6_apply, val_main_cst_apply, val_main_v5_apply, act_at]
  rfl

/-- `((-2·f)·(1 - f·f))[n, o]`. -/
theorem curv_at (n : Fin 1024) (o : Fin 128) : val_main_v10 (F := Ideal) x0 x3 x4 (ix2 n o) = curv (rowU (N := 1024) x0 n) x3 x4 o := by
  rw [val_main_v10_apply, val_main_v9_apply, val_main_v8_apply, val_main_cst_0_apply, act_at, slope_at]
  rfl

/-- `(∂u·K)[n, d, o]` is `lin` of row `(n, d)`. -/
theorem duK_at (n : Fin 1024) (d : Fin 32) (o : Fin 128) : val_main_v11 (F := Ideal) x1 x3 (ix3 n d o) = lin (rowDu (N := 1024) x1 n d) x3 o := by
  rw [val_main_v11_apply]
  refine Finset.sum_congr rfl fun k _ => ?_
  have el : lidx_main_v11 (ix3 n d o) k = ix3 n d k := funext fun a => by match a with | ⟨0, _⟩ => rfl | ⟨1, _⟩ => rfl | ⟨2, _⟩ => rfl
  have er : ridx_main_v11 (ix3 n d o) k = ix2 k o := funext fun a => by match a with | ⟨0, _⟩ => rfl | ⟨1, _⟩ => rfl
  rw [el, er]

/-- `(∂²u·K)[n, d, e, o]` is `lin` of row `(n, d, e)`. -/
theorem dduK_at (n : Fin 1024) (d e : Fin 32) (o : Fin 128) : val_main_v23 (F := Ideal) x2 x3 (ix4 n d e o) = lin (rowDdu (N := 1024) x2 n d e) x3 o := by
  rw [val_main_v23_apply]
  refine Finset.sum_congr rfl fun k _ => ?_
  have el : lidx_main_v23 (ix4 n d e o) k = ix4 n d e k := funext fun a => by match a with | ⟨0, _⟩ => rfl | ⟨1, _⟩ => rfl | ⟨2, _⟩ => rfl | ⟨3, _⟩ => rfl
  have er : ridx_main_v23 (ix4 n d e o) k = ix2 k o := funext fun a => by match a with | ⟨0, _⟩ => rfl | ⟨1, _⟩ => rfl
  rw [el, er]

/-- `∂f[n, d, o]`: `1 - f·f` reaches entry `(n, d, o)` at `(n, o)`. -/
theorem jac_at (n : Fin 1024) (d : Fin 32) (o : Fin 128) :
    val_main_v14 (F := Ideal) x0 x1 x3 x4 (ix3 n d o) = jacRow (rowU (N := 1024) x0 n) (rowDu (N := 1024) x1 n d) x3 x4 o := by
  have es : idx_main_v12 (idx_main_v13 (ix3 n d o)) = ix2 n o := funext fun a => by match a with | ⟨0, _⟩ => rfl | ⟨1, _⟩ => rfl
  rw [val_main_v14_apply, val_main_v13_apply, val_main_v12_apply, es, slope_at, duK_at]
  rfl

/-- `∂²f[n, d, e, o]`: the curvature and the slope reach entry `(n, d, e, o)` at `(n, o)`, the first `∂u·K` factor at
    `(n, d, o)`, the second at `(n, e, o)`. -/
theorem hes_at (n : Fin 1024) (d e : Fin 32) (o : Fin 128) :
    val_main_v27 (F := Ideal) x0 x1 x2 x3 x4 (ix4 n d e o)
      = hesRow (rowU (N := 1024) x0 n) (rowDu (N := 1024) x1 n d) (rowDu (N := 1024) x1 n e) (rowDdu (N := 1024) x2 n d e) x3 x4 o := by
  have ec : idx_main_v15 (idx_main_v17 (idx_main_v20 (ix4 n d e o))) = ix2 n o := funext fun a => by match a with | ⟨0, _⟩ => rfl | ⟨1, _⟩ => rfl
  have e1 : idx_main_v16 (idx_main_v20 (ix4 n d e o)) = ix3 n d o := funext fun a => by match a with | ⟨0, _⟩ => rfl | ⟨1, _⟩ => rfl | ⟨2, _⟩ => rfl
  have e2 : idx_main_v19 (idx_main_v21 (ix4 n d e o)) = ix3 n e o := funext fun a => by match a with | ⟨0, _⟩ => rfl | ⟨1, _⟩ => rfl | ⟨2, _⟩ => rfl
  have es : idx_main_v24 (idx_main_v25 (ix4 n d e o)) = ix2 n o := funext fun a => by match a with | ⟨0, _⟩ => rfl | ⟨1, _⟩ => rfl
  rw [val_main_v27_apply, val_main_v22_apply, val_main_v20_apply, val_main_v18_apply, val_main_v17_apply, val_main_v15_apply,
    val_main_v16_apply, val_main_v21_apply, val_main_v19_apply, val_main_v26_apply, val_main_v25_apply, val_main_v24_apply,
    ec, e1, e2, es, curv_at, duK_at, duK_at, slope_at, dduK_at]
  rfl

/-! ## The three results, as whole arrays -/

theorem f_eq : val_main_v4 (F := Ideal) x0 x3 x4 = outF (N := 1024) x0 x3 x4 := by
  funext i
  obtain ⟨n, o, rfl⟩ : ∃ (n : Fin 1024) (o : Fin 128), i = ix2 n o := ⟨i 0, i 1, eq_ix2 i⟩
  exact act_at x0 x3 x4 n o

theorem df_eq : val_main_v14 (F := Ideal) x0 x1 x3 x4 = outJ (N := 1024) x0 x1 x3 x4 := by
  funext i
  obtain ⟨n, d, o, rfl⟩ : ∃ (n : Fin 1024) (d : Fin 32) (o : Fin 128), i = ix3 n d o := ⟨i 0, i 1, i 2, eq_ix3 i⟩
  exact jac_at x0 x1 x3 x4 n d o

theorem ddf_eq : val_main_v27 (F := Ideal) x0 x1 x2 x3 x4 = outH (N := 1024) x0 x1 x2 x3 x4 := by
  funext i
  obtain ⟨n, d, e, o, rfl⟩ : ∃ (n : Fin 1024) (d e : Fin 32) (o : Fin 128), i = ix4 n d e o := ⟨i 0, i 1, i 2, i 3, eq_ix4 i⟩
  exact hes_at x0 x1 x2 x3 x4 n d e o

end Cert.ReferenceIdeal.Stages

end
-- ==== Proof.KernelPieces.lean ====
/-
  The three computed blocks of the kernel body, read at one entry, on the extended reals.

  At a grid point the body holds eight samples: a block `x : [8, 128]` of `u`, a block `y : [8, 32, 128]` of `∂u`, a block
  `z : [8, 32, 32, 128]` of `∂²u`, and the whole `K` and `b`. It computes
    * `tanh (x·K + b)` as an 8×128 product on the matrix unit plus the bias row broadcast over the eight samples;
    * `y·K`, by flattening the 8·32 rows of `y` into a 256×128 matrix, one product, and folding the rows back;
    * `z·K`, the same through 8·32·32 = 8192 rows.
  A change of float format is the identity on the extended reals, a product into a zero accumulator is the plain sum over
  the contracted feature, and flattening keeps row-major order: row `(a, d)` of `y` is row `a·32 + d` of the flat matrix,
  row `(a, d, e)` of `z` is row `(a·32 + d)·32 + e`. So each entry is the specification's `lin` of ONE row.
-/
import proofs.«153605_j51488067944601_1_alg».proof.Proof.Gen.KernelIdeal.Skeleton
import proofs.«153605_j51488067944601_1_alg».proof.Proof.Spec
import Idealize.ShloMosaic.Lib.Pipeline.Value
import Idealize.ShloMosaic.Lib.ValueIdx
import Idealize.ShloMosaic.Lib.StackMember
import Idealize.ShloMosaic.PureOps.Ideal.Laws

noncomputable section

namespace Cert.KernelIdeal.Pieces

open Idealize.ShloMosaic Idealize.ShloMosaic.ValueIdx Idealize.ShloMosaic.Pipeline Cert.KernelIdeal Cert.KernelIdeal.Gen Cert.TanhLayer

/-- `R` rows times a 128×128 matrix on the matrix unit, into a zero accumulator, at entry `(a, o)`: the sum over the
    contracted feature `k` of `X[a, k]·W[k, o]` — the host's plain product, which reads as the same sum. -/
theorem matmul_rows {R : Nat} {φ₁ φ₂ : FTy} (prec : Option ContractPrecision)
    (X : FVec Ideal ⟨2, ![R, 128]⟩ φ₁) (W : FVec Ideal ⟨2, ![128, 128]⟩ φ₂) (a : Fin R) (o : Fin 128) :
    matmul (DotDims.plain R 128 128) prec X W (constant ⟨2, ![R, 128]⟩ .f32 0x00000000#32) (ix2 a o)
      = ∑ k : Fin 128, X (ix2 a k) * W (ix2 k o) := by
  rw [← StackMember.dotGeneral_plain_apply prec X W a o]
  show FloatOps.matmul _ prec X W _ (ix2 a o) = FloatOps.dotGeneral _ prec _ X W (ix2 a o)
  rw [Ideal.matmul_constant_zero_apply, Ideal.dotGeneral_apply]

/-- The bias row, lifted to a 1×128 matrix and broadcast over the eight samples, at entry `(a, o)` is `b[o]`. -/
theorem bias_rows (b0 : Vec Ideal S128 .f32) (h : S128.ShapeCasts S1x128) (h' : S1x128.Broadcasts S8x128) (a : Fin 8) (o : Fin 128) :
    broadcastTo S8x128 (shapeCast S1x128 b0 h) h' (ix2 a o) = b0 (ix1 o) := by
  rw [broadcastTo_apply _ h' (ix2 a o) (ix2 (0 : Fin 1) o) (fun ax => match ax with
    | ⟨0, _⟩ => by show 0 = if (1 : Nat) = 1 then 0 else a.val; rw [if_pos rfl]
    | ⟨1, _⟩ => by show o.val = if (128 : Nat) = 1 then 0 else o.val; rw [if_neg (by decide)])]
  exact shapeCast_apply b0 h (ix2 (0 : Fin 1) o) (ix1 o) (by rw [Shape.rowMajor_val_one, Shape.rowMajor_val_two]; show o.val = 0 * 128 + o.val; omega)

/-- The activation block at sample `a`, feature `o`: the layer applied to the sample's row of the `u` block. -/
theorem act_block (K0 : Vec Ideal S128x128 .f32) (b0 : Vec Ideal S128 .f32) (x : Vec Ideal S8x128 .f32) (a : Fin 8) (o : Fin 128) :
    k0_pay3 K0 b0 x (ix2 a o) = act (rowU x a) K0 b0 o := by
  unfold k0_pay3 k0_pay2 act lin
  show Ideal.tanh (matmul (F := Ideal) (DotDims.plain 8 128 128) none (truncf (F := Ideal) (φ := .f32) .bf16 x bitsLt_bf16_f32)
        (truncf (F := Ideal) (φ := .f32) .bf16 K0 bitsLt_bf16_f32) (constant (F := Ideal) ⟨2, ![8, 128]⟩ .f32 0x00000000#32) (ix2 a o)
      + broadcastTo S8x128 (shapeCast S1x128 b0 shapeCasts_S128_S1x128) broadcasts_S1x128_S8x128 (ix2 a o)) = _
  rw [matmul_rows, bias_rows]
  rfl

/-- The block `y·K` at sample `a`, direction `d`, feature `o`: `lin` of row `(a, d)` of the `∂u` block. -/
theorem jac_block (K0 : Vec Ideal S128x128 .f32) (y : Vec Ideal S8x32x128 .f32) (a : Fin 8) (d : Fin 32) (o : Fin 128) :
    k0_pay5 K0 y (ix3 a d o) = lin (rowDu y a d) K0 o := by
  have hr : a.val * 32 + d.val < 256 := by have := a.isLt; have := d.isLt; omega
  unfold k0_pay5 k0_pay2 lin
  show shapeCast S8x32x128 (matmul (F := Ideal) (DotDims.plain 256 128 128) none
      (truncf (F := Ideal) (φ := .f32) .bf16 (shapeCast S256x128 y shapeCasts_S8x32x128_S256x128) bitsLt_bf16_f32)
      (truncf (F := Ideal) (φ := .f32) .bf16 K0 bitsLt_bf16_f32) (constant (F := Ideal) ⟨2, ![256, 128]⟩ .f32 0x00000000#32)) shapeCasts_S256x128_S8x32x128 (ix3 a d o) = _
  rw [shapeCast_apply _ shapeCasts_S256x128_S8x32x128 (ix3 a d o) (ix2 ⟨a.val * 32 + d.val, hr⟩ o)
    (by rw [Shape.rowMajor_val_two, Shape.rowMajor_val_three]; rfl), matmul_rows]
  refine Finset.sum_congr rfl fun k _ => ?_
  show shapeCast S256x128 y shapeCasts_S8x32x128_S256x128 (ix2 ⟨a.val * 32 + d.val, hr⟩ k) * K0 (ix2 k o) = y (ix3 a d k) * K0 (ix2 k o)
  rw [shapeCast_apply y shapeCasts_S8x32x128_S256x128 (ix2 ⟨a.val * 32 + d.val, hr⟩ k) (ix3 a d k)
    (by rw [Shape.rowMajor_val_two, Shape.rowMajor_val_three]; rfl)]

/-- The block `z·K` at sample `a`, directions `d`, `e`, feature `o`: `lin` of row `(a, d, e)` of the `∂²u` block. -/
theorem hes_block (K0 : Vec Ideal S128x128 .f32) (z : Vec Ideal S8x32x32x128 .f32) (a : Fin 8) (d e : Fin 32) (o : Fin 128) :
    k0_pay7 K0 z (ix4 a d e o) = lin (rowDdu z a d e) K0 o := by
  have hr : (a.val * 32 + d.val) * 32 + e.val < 8192 := by have := a.isLt; have := d.isLt; have := e.isLt; omega
  unfold k0_pay7 k0_pay2 lin
  show shapeCast S8x32x32x128 (matmul (F := Ideal) (DotDims.plain 8192 128 128) none
      (truncf (F := Ideal) (φ := .f32) .bf16 (shapeCast S8192x128 z shapeCasts_S8x32x32x128_S8192x128) bitsLt_bf16_f32)
      (truncf (F := Ideal) (φ := .f32) .bf16 K0 bitsLt_bf16_f32) (constant (F := Ideal) ⟨2, ![8192, 128]⟩ .f32 0x00000000#32)) shapeCasts_S8192x128_S8x32x32x128 (ix4 a d e o) = _
  rw [shapeCast_apply _ shapeCasts_S8192x128_S8x32x32x128 (ix4 a d e o) (ix2 ⟨(a.val * 32 + d.val) * 32 + e.val, hr⟩ o)
    (by rw [Shape.rowMajor_val_two, Shape.rowMajor_val_four]; rfl), matmul_rows]
  refine Finset.sum_congr rfl fun k _ => ?_
  show shapeCast S8192x128 z shapeCasts_S8x32x32x128_S8192x128 (ix2 ⟨(a.val * 32 + d.val) * 32 + e.val, hr⟩ k) * K0 (ix2 k o) = z (ix4 a d e k) * K0 (ix2 k o)
  rw [shapeCast_apply z shapeCasts_S8x32x32x128_S8192x128 (ix2 ⟨(a.val * 32 + d.val) * 32 + e.val, hr⟩ k) (ix4 a d e k)
    (by rw [Shape.rowMajor_val_two, Shape.rowMajor_val_four]; rfl)]

end Cert.KernelIdeal.Pieces

end
-- ==== Proof.KernelBlocks.lean ====
/-
  From the kernel's blocks to its three result arrays.

  The grid has 128 points; point `t` stages samples `8t … 8t + 7` of `u`, `∂u`, `∂²u` (block index `t` on the sample axis,
  `0` on every other axis) together with the whole `K` and `b`, and writes back samples `8t … 8t + 7` of `f`, `∂f`, `∂²f`.
  Every entry of an output block depends on ONE sample's rows of the input blocks, and sample `a` of the blocks at point `t`
  is sample `8t + a` of the arrays: so what point `t` writes back is block `t` of the specification's whole-array
  function. The 128 blocks tile the 1024 samples (sample `n` lies in block `n / 8`), hence each result array ends
  holding the specification.
-/
import proofs.«153605_j51488067944601_1_alg».proof.Proof.Gen.KernelIdeal.Value
import proofs.«153605_j51488067944601_1_alg».proof.Proof.KernelPieces
import proofs.«153605_j51488067944601_1_alg».proof.Proof.Spec

noncomputable section

namespace Cert.KernelIdeal.Blocks

open Cert.KernelIdeal Cert.KernelIdeal.Gen Idealize.ShloMosaic Idealize.ShloMosaic.TcCoe Idealize.SL.Sem Idealize.ShloMosaic.ValueIdx
open Idealize.ShloMosaic.Pipeline (Dat)
open Cert.TanhLayer

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The printed index maps, decided over the grid -/

/-- The three sample-blocked inputs move with the point on the sample axis and stay at block 0 elsewhere; `K` and `b`
    stay at block 0. -/
theorem idx_in : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 4) = t.val ∧ win0_2.index t (1 : Fin 4) = 0 ∧ win0_2.index t (2 : Fin 4) = 0 ∧ win0_2.index t (3 : Fin 4) = 0
    ∧ win0_3.index t (0 : Fin 2) = 0 ∧ win0_3.index t (1 : Fin 2) = 0
    ∧ win0_4.index t (0 : Fin 1) = 0 :=
  (by decide +kernel : ∀ t : Fin grid0.N, _)

/-- The three outputs move with the point on the sample axis and stay at block 0 elsewhere. -/
theorem idx_out : ∀ t : Fin cfg0.N,
    win0_5.index t (0 : Fin 2) = t.val ∧ win0_5.index t (1 : Fin 2) = 0
    ∧ win0_6.index t (0 : Fin 3) = t.val ∧ win0_6.index t (1 : Fin 3) = 0 ∧ win0_6.index t (2 : Fin 3) = 0
    ∧ win0_7.index t (0 : Fin 4) = t.val ∧ win0_7.index t (1 : Fin 4) = 0 ∧ win0_7.index t (2 : Fin 4) = 0 ∧ win0_7.index t (3 : Fin 4) = 0 :=
  (by decide +kernel : ∀ t : Fin grid0.N, _)

theorem sample_lt (t : Fin cfg0.N) (a : Fin 8) : 8 * t.val + a.val < 1024 := by
  have ht : t.val < 128 := by have h : t.val < grid0.N := t.isLt; rw [N_0] at h; exact h
  have ha := a.isLt
  omega

/-! ## The input blocks at a point, by their literal types, and their rows -/

abbrev ublk (c : Dev nD) (t : Fin cfg0.N) : Vec Ideal S8x128 .f32 := iblk m c 0 t
abbrev dublk (c : Dev nD) (t : Fin cfg0.N) : Vec Ideal S8x32x128 .f32 := iblk m c 1 t
abbrev ddublk (c : Dev nD) (t : Fin cfg0.N) : Vec Ideal S8x32x32x128 .f32 := iblk m c 2 t
abbrev kblk (c : Dev nD) (t : Fin cfg0.N) : Vec Ideal S128x128 .f32 := iblk m c 3 t
abbrev bblk (c : Dev nD) (t : Fin cfg0.N) : Vec Ideal S128 .f32 := iblk m c 4 t

abbrev uarr (c : Dev nD) : Vec Ideal S1024x128 .f32 := V m c main_arg0
abbrev duarr (c : Dev nD) : Vec Ideal S1024x32x128 .f32 := V m c main_arg1
abbrev dduarr (c : Dev nD) : Vec Ideal S1024x32x32x128 .f32 := V m c main_arg2
abbrev karr (c : Dev nD) : Vec Ideal S128x128 .f32 := V m c main_arg3
abbrev barr (c : Dev nD) : Vec Ideal S128 .f32 := V m c main_arg4

/-- Sample `a` of the `u` block at point `t` is sample `8t + a` of `u`. -/
theorem u_row (c : Dev nD) (t : Fin cfg0.N) (a : Fin 8) :
    rowU (N := 8) (ublk m c t) a = rowU (N := 1024) (uarr m c) ⟨8 * t.val + a.val, sample_lt t a⟩ := by
  obtain ⟨e0, e1, -⟩ := idx_in t
  funext k
  show iblk m c 0 t (ix2 a k) = V m c main_arg0 (ix2 ⟨8 * t.val + a.val, sample_lt t a⟩ k)
  unfold iblk
  rw [View.read_apply]
  show V m c main_arg0 _ = V m c main_arg0 _
  congr 1
  funext ax; apply Fin.ext
  match ax with
  | ⟨0, _⟩ => show win0_0.index t (0 : Fin 2) * 8 + 1 * a.val = 8 * t.val + a.val; omega
  | ⟨1, _⟩ => show win0_0.index t (1 : Fin 2) * 128 + 1 * k.val = k.val; omega

/-- Row `(a, d)` of the `∂u` block at point `t` is row `(8t + a, d)` of `∂u`. -/
theorem du_row (c : Dev nD) (t : Fin cfg0.N) (a : Fin 8) (d : Fin 32) :
    rowDu (N := 8) (dublk m c t) a d = rowDu (N := 1024) (duarr m c) ⟨8 * t.val + a.val, sample_lt t a⟩ d := by
  obtain ⟨-, -, e0, e1, e2, -⟩ := idx_in t
  funext k
  show iblk m c 1 t (ix3 a d k) = V m c main_arg1 (ix3 ⟨8 * t.val + a.val, sample_lt t a⟩ d k)
  unfold iblk
  rw [View.read_apply]
  show V m c main_arg1 _ = V m c main_arg1 _
  congr 1
  funext ax; apply Fin.ext
  match ax with
  | ⟨0, _⟩ => show win0_1.index t (0 : Fin 3) * 8 + 1 * a.val = 8 * t.val + a.val; omega
  | ⟨1, _⟩ => show win0_1.index t (1 : Fin 3) * 32 + 1 * d.val = d.val; omega
  | ⟨2, _⟩ => show win0_1.index t (2 : Fin 3) * 128 + 1 * k.val = k.val; omega

/-- Row `(a, d, e)` of the `∂²u` block at point `t` is row `(8t + a, d, e)` of `∂²u`. -/
theorem ddu_row (c : Dev nD) (t : Fin cfg0.N) (a : Fin 8) (d e : Fin 32) :
    rowDdu (N := 8) (ddublk m c t) a d e = rowDdu (N := 1024) (dduarr m c) ⟨8 * t.val + a.val, sample_lt t a⟩ d e := by
  obtain ⟨-, -, -, -, -, e0, e1, e2, e3, -⟩ := idx_in t
  funext k
  show iblk m c 2 t (ix4 a d e k) = V m c main_arg2 (ix4 ⟨8 * t.val + a.val, sample_lt t a⟩ d e k)
  unfold iblk
  rw [View.read_apply]
  show V m c main_arg2 _ = V m c main_arg2 _
  congr 1
  funext ax; apply Fin.ext
  match ax with
  | ⟨0, _⟩ => show win0_2.index t (0 : Fin 4) * 8 + 1 * a.val = 8 * t.val + a.val; omega
  | ⟨1, _⟩ => show win0_2.index t (1 : Fin 4) * 32 + 1 * d.val = d.val; omega
  | ⟨2, _⟩ => show win0_2.index t (2 : Fin 4) * 32 + 1 * e.val = e.val; omega
  | ⟨3, _⟩ => show win0_2.index t (3 : Fin 4) * 128 + 1 * k.val = k.val; omega

/-- The `K` block at every point is `K`. -/
theorem k_whole (c : Dev nD) (t : Fin cfg0.N) : kblk m c t = karr m c := by
  obtain ⟨-, -, -, -, -, -, -, -, -, e0, e1, -⟩ := idx_in t
  funext y
  show iblk m c 3 t y = V m c main_arg3 y
  unfold iblk
  rw [View.read_apply]
  show V m c main_arg3 _ = V m c main_arg3 _
  congr 1
  funext ax; apply Fin.ext
  match ax with
  | ⟨0, _⟩ => show win0_3.index t (0 : Fin 2) * 128 + 1 * (y 0).val = (y 0).val; omega
  | ⟨1, _⟩ => show win0_3.index t (1 : Fin 2) * 128 + 1 * (y 1).val = (y 1).val; omega

/-- The `b` block at every point is `b`. -/
theorem b_whole (c : Dev nD) (t : Fin cfg0.N) : bblk m c t = barr m c := by
  obtain ⟨-, -, -, -, -, -, -, -, -, -, -, e0⟩ := idx_in t
  funext y
  show iblk m c 4 t y = V m c main_arg4 y
  unfold iblk
  rw [View.read_apply]
  show V m c main_arg4 _ = V m c main_arg4 _
  congr 1
  funext ax; apply Fin.ext
  match ax with
  | ⟨0, _⟩ => show win0_4.index t (0 : Fin 1) * 128 + 1 * (y 0).val = (y 0).val; omega

/-! ## What the body leaves in each output block, at one entry -/

/-- The `f` block at `(a, o)`: the one store's payload is the activation block. -/
theorem out5_at (x0 : Vec Ideal S8x128 .f32) (x1 : Vec Ideal S8x32x128 .f32) (x2 : Vec Ideal S8x32x32x128 .f32)
    (x3 : Vec Ideal S128x128 .f32) (x4 : Vec Ideal S128 .f32) (a : Fin 8) (o : Fin 128) :
    out0_5 x0 x1 x2 x3 x4 (ix2 a o) = act (rowU (N := 8) x0 a) x3 x4 o := by
  unfold out0_5
  rw [View.canon_unit_zero hz2]
  simp only [View.ld_unit_zero (S := S128x128) hz2, View.ld_unit_zero (S := S128) hz1, View.ld_unit_zero (S := S8x128) hz2]
  exact Pieces.act_block x3 x4 x0 a o

/-- The `∂f` block at `(a, d, o)`: `(1 - f·f)` at `(a, o)` times `∂u·K` at `(a, d, o)`. -/
theorem out6_at (x0 : Vec Ideal S8x128 .f32) (x1 : Vec Ideal S8x32x128 .f32) (x2 : Vec Ideal S8x32x32x128 .f32)
    (x3 : Vec Ideal S128x128 .f32) (x4 : Vec Ideal S128 .f32) (a : Fin 8) (d : Fin 32) (o : Fin 128) :
    out0_6 x0 x1 x2 x3 x4 (ix3 a d o) = jacRow (rowU (N := 8) x0 a) (rowDu (N := 8) x1 a d) x3 x4 o := by
  have e0 : Value.ix6_0 (ix3 a d o) = ix2 a o := funext fun ax => by match ax with | ⟨0, _⟩ => rfl | ⟨1, _⟩ => rfl
  have e1 : Value.ix6_1 (ix3 a d o) = ix2 a o := funext fun ax => by match ax with | ⟨0, _⟩ => rfl | ⟨1, _⟩ => rfl
  have e2 : Value.ix6_2 (ix3 a d o) = ix3 a d o := funext fun ax => by match ax with | ⟨0, _⟩ => rfl | ⟨1, _⟩ => rfl | ⟨2, _⟩ => rfl
  unfold out0_6
  rw [Value.canon6_eq]
  simp only [View.ld_unit_zero (S := S128x128) hz2, View.ld_unit_zero (S := S128) hz1, View.ld_unit_zero (S := S8x128) hz2,
    View.ld_unit_zero (S := S8x32x128) hz3]
  dsimp only [Value.E6]
  rw [e0, e1, e2, Pieces.act_block, Pieces.jac_block]
  rfl

/-- The `∂²f` block at `(a, d, e, o)`: the curvature and the slope at `(a, o)`, `∂u·K` at `(a, d, o)` and at `(a, e, o)`,
    `∂²u·K` at `(a, d, e, o)`. -/
theorem out7_at (x0 : Vec Ideal S8x128 .f32) (x1 : Vec Ideal S8x32x128 .f32) (x2 : Vec Ideal S8x32x32x128 .f32)
    (x3 : Vec Ideal S128x128 .f32) (x4 : Vec Ideal S128 .f32) (a : Fin 8) (d e : Fin 32) (o : Fin 128) :
    out0_7 x0 x1 x2 x3 x4 (ix4 a d e o)
      = hesRow (rowU (N := 8) x0 a) (rowDu (N := 8) x1 a d) (rowDu (N := 8) x1 a e) (rowDdu (N := 8) x2 a d e) x3 x4 o := by
  have e0 : Value.ix7_0 (ix4 a d e o) = ix2 a o := funext fun ax => by match ax with | ⟨0, _⟩ => rfl | ⟨1, _⟩ => rfl
  have e1 : Value.ix7_1 (ix4 a d e o) = ix2 a o := funext fun ax => by match ax with | ⟨0, _⟩ => rfl | ⟨1, _⟩ => rfl
  have e2 : Value.ix7_2 (ix4 a d e o) = ix2 a o := funext fun ax => by match ax with | ⟨0, _⟩ => rfl | ⟨1, _⟩ => rfl
  have e3 : Value.ix7_3 (ix4 a d e o) = ix3 a d o := funext fun ax => by match ax with | ⟨0, _⟩ => rfl | ⟨1, _⟩ => rfl | ⟨2, _⟩ => rfl
  have e4 : Value.ix7_4 (ix4 a d e o) = ix3 a e o := funext fun ax => by match ax with | ⟨0, _⟩ => rfl | ⟨1, _⟩ => rfl | ⟨2, _⟩ => rfl
  have e5 : Value.ix7_5 (ix4 a d e o) = ix2 a o := funext fun ax => by match ax with | ⟨0, _⟩ => rfl | ⟨1, _⟩ => rfl
  have e6 : Value.ix7_6 (ix4 a d e o) = ix2 a o := funext fun ax => by match ax with | ⟨0, _⟩ => rfl | ⟨1, _⟩ => rfl
  have e7 : Value.ix7_7 (ix4 a d e o) = ix4 a d e o := funext fun ax => by match ax with | ⟨0, _⟩ => rfl | ⟨1, _⟩ => rfl | ⟨2, _⟩ => rfl | ⟨3, _⟩ => rfl
  unfold out0_7
  rw [Value.canon7_eq]
  simp only [View.ld_unit_zero (S := S128x128) hz2, View.ld_unit_zero (S := S128) hz1, View.ld_unit_zero (S := S8x128) hz2,
    View.ld_unit_zero (S := S8x32x128) hz3, View.ld_unit_zero (S := S8x32x32x128) hz4]
  dsimp only [Value.E7]
  rw [e0, e1, e2, e3, e4, e5, e6, e7, Pieces.act_block, Pieces.jac_block, Pieces.jac_block, Pieces.hes_block]
  rfl

/-! ## What each point writes back is its block of the specification -/

theorem flushed5_eq (c : Dev nD) (t : Fin cfg0.N) :
    (dats m 0 c).flushed 5 t = ((cfg0.win 5).blk t).view.read (Elt Ideal) (outF (N := 1024) (uarr m c) (karr m c) (barr m c)) := by
  obtain ⟨e0, e1, -⟩ := idx_out t
  rw [Value.flushed5]
  funext y
  obtain ⟨a, o, rfl⟩ : ∃ (a : Fin 8) (o : Fin 128), y = ix2 a o := ⟨y 0, y 1, eq_ix2 y⟩
  have hemb : ((cfg0.win 5).blk t).view.emb (ix2 a o) = ix2 ⟨8 * t.val + a.val, sample_lt t a⟩ o := by
    funext ax; apply Fin.ext
    match ax with
    | ⟨0, _⟩ => show win0_5.index t (0 : Fin 2) * 8 + 1 * a.val = 8 * t.val + a.val; omega
    | ⟨1, _⟩ => show win0_5.index t (1 : Fin 2) * 128 + 1 * o.val = o.val; omega
  show out0_5 (ublk m c t) (dublk m c t) (ddublk m c t) (kblk m c t) (bblk m c t) (ix2 a o)
    = outF (N := 1024) (uarr m c) (karr m c) (barr m c) (((cfg0.win 5).blk t).view.emb (ix2 a o))
  rw [hemb]
  refine (out5_at (ublk m c t) (dublk m c t) (ddublk m c t) (kblk m c t) (bblk m c t) a o).trans ?_
  rw [u_row m c t a, k_whole m c t, b_whole m c t]
  rfl

theorem flushed6_eq (c : Dev nD) (t : Fin cfg0.N) :
    (dats m 0 c).flushed 6 t = ((cfg0.win 6).blk t).view.read (Elt Ideal) (outJ (N := 1024) (uarr m c) (duarr m c) (karr m c) (barr m c)) := by
  obtain ⟨-, -, e0, e1, e2, -⟩ := idx_out t
  rw [Value.flushed6]
  funext y
  obtain ⟨a, d, o, rfl⟩ : ∃ (a : Fin 8) (d : Fin 32) (o : Fin 128), y = ix3 a d o := ⟨y 0, y 1, y 2, eq_ix3 y⟩
  have hemb : ((cfg0.win 6).blk t).view.emb (ix3 a d o) = ix3 ⟨8 * t.val + a.val, sample_lt t a⟩ d o := by
    funext ax; apply Fin.ext
    match ax with
    | ⟨0, _⟩ => show win0_6.index t (0 : Fin 3) * 8 + 1 * a.val = 8 * t.val + a.val; omega
    | ⟨1, _⟩ => show win0_6.index t (1 : Fin 3) * 32 + 1 * d.val = d.val; omega
    | ⟨2, _⟩ => show win0_6.index t (2 : Fin 3) * 128 + 1 * o.val = o.val; omega
  show out0_6 (ublk m c t) (dublk m c t) (ddublk m c t) (kblk m c t) (bblk m c t) (ix3 a d o)
    = outJ (N := 1024) (uarr m c) (duarr m c) (karr m c) (barr m c) (((cfg0.win 6).blk t).view.emb (ix3 a d o))
  rw [hemb]
  refine (out6_at (ublk m c t) (dublk m c t) (ddublk m c t) (kblk m c t) (bblk m c t) a d o).trans ?_
  rw [u_row m c t a, du_row m c t a d, k_whole m c t, b_whole m c t]
  rfl

theorem flushed7_eq (c : Dev nD) (t : Fin cfg0.N) :
    (dats m 0 c).flushed 7 t
      = ((cfg0.win 7).blk t).view.read (Elt Ideal) (outH (N := 1024) (uarr m c) (duarr m c) (dduarr m c) (karr m c) (barr m c)) := by
  obtain ⟨-, -, -, -, -, e0, e1, e2, e3⟩ := idx_out t
  rw [Value.flushed7]
  funext y
  obtain ⟨a, d, e, o, rfl⟩ : ∃ (a : Fin 8) (d e : Fin 32) (o : Fin 128), y = ix4 a d e o := ⟨y 0, y 1, y 2, y 3, eq_ix4 y⟩
  have hemb : ((cfg0.win 7).blk t).view.emb (ix4 a d e o) = ix4 ⟨8 * t.val + a.val, sample_lt t a⟩ d e o := by
    funext ax; apply Fin.ext
    match ax with
    | ⟨0, _⟩ => show win0_7.index t (0 : Fin 4) * 8 + 1 * a.val = 8 * t.val + a.val; omega
    | ⟨1, _⟩ => show win0_7.index t (1 : Fin 4) * 32 + 1 * d.val = d.val; omega
    | ⟨2, _⟩ => show win0_7.index t (2 : Fin 4) * 32 + 1 * e.val = e.val; omega
    | ⟨3, _⟩ => show win0_7.index t (3 : Fin 4) * 128 + 1 * o.val = o.val; omega
  show out0_7 (ublk m c t) (dublk m c t) (ddublk m c t) (kblk m c t) (bblk m c t) (ix4 a d e o)
    = outH (N := 1024) (uarr m c) (duarr m c) (dduarr m c) (karr m c) (barr m c) (((cfg0.win 7).blk t).view.emb (ix4 a d e o))
  rw [hemb]
  refine (out7_at (ublk m c t) (dublk m c t) (ddublk m c t) (kblk m c t) (bblk m c t) a d e o).trans ?_
  rw [u_row m c t a, du_row m c t a d, du_row m c t a e, ddu_row m c t a d e, k_whole m c t, b_whole m c t]
  rfl

/-! ## The blocks tile the arrays: sample `n` lies in block `n / 8` -/

theorem point_of (n : Nat) (hn : n < 1024) : n / 8 < cfg0.N := by show n / 8 < grid0.N; rw [N_0]; omega

theorem cover5 (i : S1024x128.Idx) : ∃ t : Fin cfg0.N, (cfg0.win 5).flush t = true ∧ i ∈ ((cfg0.win 5).blk t).view.set := by
  have h0 : (i 0).val < 1024 := (i 0).isLt
  have h1 : (i 1).val < 128 := (i 1).isLt
  refine ⟨⟨(i 0).val / 8, point_of _ h0⟩, flush0_5 _, ?_⟩
  obtain ⟨e0, e1, -⟩ := idx_out ⟨(i 0).val / 8, point_of _ h0⟩
  show i ∈ ((View.whole main_v0_0).slice (win0_5.rect ⟨(i 0).val / 8, point_of _ h0⟩)).set
  rw [View.set_slice_whole, Rect.mem_set_unit]
  intro ax
  match ax with
  | ⟨0, _⟩ => show win0_5.index ⟨(i 0).val / 8, point_of _ h0⟩ (0 : Fin 2) * 8 ≤ (i 0).val ∧ (i 0).val < win0_5.index ⟨(i 0).val / 8, point_of _ h0⟩ (0 : Fin 2) * 8 + 8;
                rw [e0]; show (i 0).val / 8 * 8 ≤ (i 0).val ∧ (i 0).val < (i 0).val / 8 * 8 + 8; omega
  | ⟨1, _⟩ => show win0_5.index ⟨(i 0).val / 8, point_of _ h0⟩ (1 : Fin 2) * 128 ≤ (i 1).val ∧ (i 1).val < win0_5.index ⟨(i 0).val / 8, point_of _ h0⟩ (1 : Fin 2) * 128 + 128;
                rw [e1]; omega

theorem cover6 (i : S1024x32x128.Idx) : ∃ t : Fin cfg0.N, (cfg0.win 6).flush t = true ∧ i ∈ ((cfg0.win 6).blk t).view.set := by
  have h0 : (i 0).val < 1024 := (i 0).isLt
  have h1 : (i 1).val < 32 := (i 1).isLt
  have h2 : (i 2).val < 128 := (i 2).isLt
  refine ⟨⟨(i 0).val / 8, point_of _ h0⟩, flush0_6 _, ?_⟩
  obtain ⟨-, -, e0, e1, e2, -⟩ := idx_out ⟨(i 0).val / 8, point_of _ h0⟩
  show i ∈ ((View.whole main_v0_1).slice (win0_6.rect ⟨(i 0).val / 8, point_of _ h0⟩)).set
  rw [View.set_slice_whole, Rect.mem_set_unit]
  intro ax
  match ax with
  | ⟨0, _⟩ => show win0_6.index ⟨(i 0).val / 8, point_of _ h0⟩ (0 : Fin 3) * 8 ≤ (i 0).val ∧ (i 0).val < win0_6.index ⟨(i 0).val / 8, point_of _ h0⟩ (0 : Fin 3) * 8 + 8;
                rw [e0]; show (i 0).val / 8 * 8 ≤ (i 0).val ∧ (i 0).val < (i 0).val / 8 * 8 + 8; omega
  | ⟨1, _⟩ => show win0_6.index ⟨(i 0).val / 8, point_of _ h0⟩ (1 : Fin 3) * 32 ≤ (i 1).val ∧ (i 1).val < win0_6.index ⟨(i 0).val / 8, point_of _ h0⟩ (1 : Fin 3) * 32 + 32;
                rw [e1]; omega
  | ⟨2, _⟩ => show win0_6.index ⟨(i 0).val / 8, point_of _ h0⟩ (2 : Fin 3) * 128 ≤ (i 2).val ∧ (i 2).val < win0_6.index ⟨(i 0).val / 8, point_of _ h0⟩ (2 : Fin 3) * 128 + 128;
                rw [e2]; omega

theorem cover7 (i : S1024x32x32x128.Idx) : ∃ t : Fin cfg0.N, (cfg0.win 7).flush t = true ∧ i ∈ ((cfg0.win 7).blk t).view.set := by
  have h0 : (i 0).val < 1024 := (i 0).isLt
  have h1 : (i 1).val < 32 := (i 1).isLt
  have h2 : (i 2).val < 32 := (i 2).isLt
  have h3 : (i 3).val < 128 := (i 3).isLt
  refine ⟨⟨(i 0).val / 8, point_of _ h0⟩, flush0_7 _, ?_⟩
  obtain ⟨-, -, -, -, -, e0, e1, e2, e3⟩ := idx_out ⟨(i 0).val / 8, point_of _ h0⟩
  show i ∈ ((View.whole main_v0_2).slice (win0_7.rect ⟨(i 0).val / 8, point_of _ h0⟩)).set
  rw [View.set_slice_whole, Rect.mem_set_unit]
  intro ax
  match ax with
  | ⟨0, _⟩ => show win0_7.index ⟨(i 0).val / 8, point_of _ h0⟩ (0 : Fin 4) * 8 ≤ (i 0).val ∧ (i 0).val < win0_7.index ⟨(i 0).val / 8, point_of _ h0⟩ (0 : Fin 4) * 8 + 8;
                rw [e0]; show (i 0).val / 8 * 8 ≤ (i 0).val ∧ (i 0).val < (i 0).val / 8 * 8 + 8; omega
  | ⟨1, _⟩ => show win0_7.index ⟨(i 0).val / 8, point_of _ h0⟩ (1 : Fin 4) * 32 ≤ (i 1).val ∧ (i 1).val < win0_7.index ⟨(i 0).val / 8, point_of _ h0⟩ (1 : Fin 4) * 32 + 32;
                rw [e1]; omega
  | ⟨2, _⟩ => show win0_7.index ⟨(i 0).val / 8, point_of _ h0⟩ (2 : Fin 4) * 32 ≤ (i 2).val ∧ (i 2).val < win0_7.index ⟨(i 0).val / 8, point_of _ h0⟩ (2 : Fin 4) * 32 + 32;
                rw [e2]; omega
  | ⟨3, _⟩ => show win0_7.index ⟨(i 0).val / 8, point_of _ h0⟩ (3 : Fin 4) * 128 ≤ (i 3).val ∧ (i 3).val < win0_7.index ⟨(i 0).val / 8, point_of _ h0⟩ (3 : Fin 4) * 128 + 128;
                rw [e3]; omega

/-! ## The three arrays after the run, and the run re-posted -/

theorem final5 (c : Dev nD) : (dats m 0 c).arrAt 5 cfg0.N = outF (N := 1024) (uarr m c) (karr m c) (barr m c) :=
  (dats m 0 c).arrAt_eq_of_cover 5 _ (fun t _ => flushed5_eq m c t) cover5

theorem final6 (c : Dev nD) : (dats m 0 c).arrAt 6 cfg0.N = outJ (N := 1024) (uarr m c) (duarr m c) (karr m c) (barr m c) :=
  (dats m 0 c).arrAt_eq_of_cover 6 _ (fun t _ => flushed6_eq m c t) cover6

theorem final7 (c : Dev nD) : (dats m 0 c).arrAt 7 cfg0.N = outH (N := 1024) (uarr m c) (duarr m c) (dduarr m c) (karr m c) (barr m c) :=
  (dats m 0 c).arrAt_eq_of_cover 7 _ (fun t _ => flushed7_eq m c t) cover7

/-- Every weakly fair execution of the idealized kernel terminates with `f`, `∂f`, `∂²f` at the specification of the
    argument arrays, the arguments unchanged. -/
theorem run : θ_run defs (onTc (τ := τ) (main (F := Ideal))) ⟨m, fun _ => 0, ρ⟩ fun r => ∀ c : Dev nD,
      r.2.mem ((c : Thread nD τ).loc main_v0_0) = outF (N := 1024) (uarr m c) (karr m c) (barr m c)
      ∧ r.2.mem ((c : Thread nD τ).loc main_v0_1) = outJ (N := 1024) (uarr m c) (duarr m c) (karr m c) (barr m c)
      ∧ r.2.mem ((c : Thread nD τ).loc main_v0_2) = outH (N := 1024) (uarr m c) (duarr m c) (dduarr m c) (karr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩)
    (Value.run_blocks m ρ)

end Cert.KernelIdeal.Blocks

end
-- ==== Proof.lean ====
/-
  A tanh layer `f = tanh (u·K + b)` over 1024 samples of 128 features, with its first derivative `∂f` along 32 directions
  and its second derivative `∂²f` along 32 × 32 pairs of directions, propagated forward by the chain rule:
    `∂f  = (1 - f²)·(∂u·K)`,
    `∂²f = ((-2·f)·(1 - f²)·(∂u·K)_d)·(∂u·K)_e + (1 - f²)·(∂²u·K)`.
  The kernel fuses all of it over blocks of eight samples: three products on the matrix unit (the blocks' rows flattened
  to 8, 256 and 8192 rows against the one 128×128 `K`), the bias and the factors `1 - f²`, `(-2·f)·(1 - f²)` broadcast along
  the direction axes. The reference does the same on whole arrays with three `dot_general`s. On the extended reals a
  change of float format is the identity and both kinds of product are the plain sum over the contracted feature, so the two
  programs compute the same expressions grouped the same way: no algebraic law joins them, only bookkeeping of which rows
  an entry reads — every entry of sample `n` reads sample `n`'s rows of `u`, `∂u`, `∂²u` and nothing else, and sample `a` of
  the block at grid point `t` is sample `8t + a`. The precondition (finite inputs) is not used by the value claim.

  Proof/Spec.lean states the three results over rows; Proof/RefStages.lean reads the reference's stages as that
  specification; Proof/KernelPieces.lean reads the kernel's three products at an entry; Proof/KernelBlocks.lean carries the
  blocks to the arrays. Here: the three frames, the empty list of idealization rewrites, and the two runs side by side.
-/
import proofs.«153605_j51488067944601_1_alg».proof.Defs
import proofs.«153605_j51488067944601_1_alg».proof.Proof.Gen.Kernel
import proofs.«153605_j51488067944601_1_alg».proof.Proof.Gen.Kernel.Skeleton
import proofs.«153605_j51488067944601_1_alg».proof.Proof.Gen.Kernel.Launch
import proofs.«153605_j51488067944601_1_alg».proof.Proof.Gen.Kernel.Points
import proofs.«153605_j51488067944601_1_alg».proof.Proof.Gen.Kernel.Frame
import proofs.«153605_j51488067944601_1_alg».proof.Proof.Gen.KernelIdeal
import proofs.«153605_j51488067944601_1_alg».proof.Proof.Gen.KernelIdeal.Skeleton
import proofs.«153605_j51488067944601_1_alg».proof.Proof.Gen.KernelIdeal.Launch
import proofs.«153605_j51488067944601_1_alg».proof.Proof.Gen.KernelIdeal.Points
import proofs.«153605_j51488067944601_1_alg».proof.Proof.Gen.KernelIdeal.Frame
import proofs.«153605_j51488067944601_1_alg».proof.Proof.Gen.ReferenceIdeal
import proofs.«153605_j51488067944601_1_alg».proof.Proof.Gen.Pre_finite_inputs
import proofs.«153605_j51488067944601_1_alg».proof.Proof.Gen.KernelIdeal.Value
import proofs.«153605_j51488067944601_1_alg».proof.Proof.Gen.ReferenceIdeal.Run
import proofs.«153605_j51488067944601_1_alg».proof.Proof.Gen.ReferenceIdeal.Read
import proofs.«153605_j51488067944601_1_alg».proof.Proof.Spec
import proofs.«153605_j51488067944601_1_alg».proof.Proof.RefStages
import proofs.«153605_j51488067944601_1_alg».proof.Proof.KernelPieces
import proofs.«153605_j51488067944601_1_alg».proof.Proof.KernelBlocks
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the three results forgotten. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealized kernel is the kernel's own text read on the extended reals: no operation was rewritten. -/
theorem preserves : Cert.preserves_Kernel_KernelIdeal := trivial

/-- From memories that agree on the five arguments both programs end with `f`, `∂f`, `∂²f` at the specification of the
    arguments: the kernel block by block, the reference stage by stage. -/
theorem algebraic : Cert.algebraic_KernelIdeal_ReferenceIdeal := by
  intro m ρ m' ρ' _ hagree
  refine ⟨_, _, _, Cert.KernelIdeal.Blocks.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [(hagree c).1, (hagree c).2.2.2.1, (hagree c).2.2.2.2]
    exact (Cert.ReferenceIdeal.Read.val_main_v4_eq _ _ _).trans (Cert.ReferenceIdeal.Stages.f_eq _ _ _)
  · rw [(hagree c).1, (hagree c).2.1, (hagree c).2.2.2.1, (hagree c).2.2.2.2]
    exact (Cert.ReferenceIdeal.Read.val_main_v14_eq _ _ _ _).trans (Cert.ReferenceIdeal.Stages.df_eq _ _ _ _)
  · rw [(hagree c).1, (hagree c).2.1, (hagree c).2.2.1, (hagree c).2.2.2.1, (hagree c).2.2.2.2]
    exact (Cert.ReferenceIdeal.Read.val_main_v27_eq _ _ _ _ _).trans (Cert.ReferenceIdeal.Stages.ddf_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
